-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x16 .f32) (main_arg5 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S50000x16 : Shape := ⟨2, ![50000, 16]⟩
abbrev S2000x16 : Shape := ⟨2, ![2000, 16]⟩
abbrev S850000x16 : Shape := ⟨2, ![850000, 16]⟩
abbrev S1x16 : Shape := ⟨2, ![1, 16]⟩

abbrev nBuf : Space → Nat
  | .hbm => 87
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S850000x1, .f32⟩
  | .hbm, ⟨60, _⟩ => ⟨S850000x64, .f32⟩
  | .hbm, ⟨61, _⟩ => ⟨S850000x64, .f32⟩
  | .hbm, ⟨62, _⟩ => ⟨S_, .f32⟩
  | .hbm, ⟨63, _⟩ => ⟨S50000x64, .f32⟩
  | .hbm, ⟨64, _⟩ => ⟨S850000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x16, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x16, .f32⟩
  | .hbm, ⟨78, _⟩ => ⟨S850000x1, .f32⟩
  | .hbm, ⟨79, _⟩ => ⟨S850000x16, .f32⟩
  | .hbm, ⟨80, _⟩ => ⟨S850000x16, .f32⟩
  | .hbm, ⟨81, _⟩ => ⟨S_, .f32⟩
  | .hbm, ⟨82, _⟩ => ⟨S50000x16, .f32⟩
  | .hbm, ⟨83, _⟩ => ⟨S850000x1, .i32⟩
  | .hbm, ⟨84, _⟩ => ⟨S50000x16, .f32⟩
  | .hbm, ⟨85, _⟩ => ⟨S1x16, .f32⟩
  | .hbm, ⟨86, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x16_S2000x16_1_0_0_1_n_n_wf : DotDims.WF S2000x64 S64x16 S2000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S50000x16.size a
  hwx2_2 : ∀ i : grid2.Coords, EltTy.bits .f32 = 32 ∨ (Rect.block (s := S50000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S50000x16.size a
  hwx3_0 : ∀ i : grid3.Coords, EltTy.bits .f32 = 32 ∨ (Rect.block (s := S50000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S50000x16.size a
  hwx3_2 : ∀ i : grid3.Coords, EltTy.bits .f32 = 32 ∨ (Rect.block (s := S50000x16) S2000x16.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x16 : Shape := ⟨2, ![50000, 16]⟩
abbrev S850000x16 : Shape := ⟨2, ![850000, 16]⟩
abbrev S1x16 : Shape := ⟨2, ![1, 16]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x16, .f32⟩
  | 5 => ⟨S16, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x64, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x64, .f32⟩
  | 59 => ⟨S850000x1, .f32⟩
  | 60 => ⟨S850000x64, .f32⟩
  | 61 => ⟨S850000x64, .f32⟩
  | 62 => ⟨S_, .f32⟩
  | 63 => ⟨S50000x64, .f32⟩
  | 64 => ⟨S850000x1, .i32⟩
  | 65 => ⟨S50000x64, .f32⟩
  | 66 => ⟨S1x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S_, .f32⟩
  | 85 => ⟨S50000, .f32⟩
  | 86 => ⟨S50000, .f32⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S50000x16, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x16, .f32⟩
  | 121 => ⟨S850000x1, .f32⟩
  | 122 => ⟨S850000x16, .f32⟩
  | 123 => ⟨S850000x16, .f32⟩
  | 124 => ⟨S_, .f32⟩
  | 125 => ⟨S50000x16, .f32⟩
  | 126 => ⟨S850000x1, .i32⟩
  | 127 => ⟨S50000x16, .f32⟩
  | _ => ⟨S50000x128, .f32⟩

abbrev hbmTy0_1 (i : Nat) : BufTy := match i % 128 with
  | 0 => ⟨S1x16, .f32⟩
  | 1 => ⟨S50000x16, .f32⟩
  | 2 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.Chain.lean ====
import proofs.«165771_j1709396984302_1_alg».proof.Proof.Gen.ReferenceIdeal
import Idealize.ShloMosaic.PureOps.Ideal

/-!
  The graph aggregation both programs apply after each dense product, as ONE function of its four inputs: the
  [50000, F] array h of projected node features, the 850000 edge sources s and targets d (the 800000 given edges followed
  by one self-loop per node), and the 850000 edge weights nrm. Row e of the gathered array is row s(e) of h (a source
  below zero counted from the end) scaled by nrm(e); the result adds every gathered row e into row d(e) of a zero
  array. Both programs spell this with the same fourteen host operations, so nothing here is ever opened: the two sides
  are compared by what goes IN.
-/

noncomputable section

namespace Cert.Gcn

open Cert.ReferenceIdeal Cert.ReferenceIdeal.Gen Idealize.ShloMosaic

variable {F : FTy → Type} [FloatOps F]

/-- An index below zero counts from the end: s < 0 ? s + 50000 : s, entry by entry. -/
def wrap (s : (⟨S850000, .i32⟩ : BufTy).Contents (Elt F)) : (⟨S850000, .i32⟩ : BufTy).Contents (Elt F) :=
  select (cmpi .slt s (broadcastInDim S850000 ![] bcast_S_S850000 (constantI S_ 32 0#32)))
    (addi s (broadcastInDim S850000 ![] bcast_S_S850000 (constantI S_ 32 50000#32))) s

/-- The aggregation at 64 features. -/
def agg64 (h : (⟨S50000x64, .f32⟩ : BufTy).Contents (Elt F)) (s d : (⟨S850000, .i32⟩ : BufTy).Contents (Elt F))
    (nrm : (⟨S850000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 h
        (broadcastInDim S850000x1 ![0] bcast_S850000_S850000x1_0 (wrap s)))
      (broadcastInDim S850000x64 ![0, 1] bcast_S850000x1_S850000x64_0_1
        (broadcastInDim S850000x1 ![0] bcast_S850000_S850000x1_0 nrm)))

/-- The aggregation at 16 features. -/
def agg16 (h : (⟨S50000x16, .f32⟩ : BufTy).Contents (Elt F)) (s d : (⟨S850000, .i32⟩ : BufTy).Contents (Elt F))
    (nrm : (⟨S850000, .f32⟩ : BufTy).Contents (Elt F)) : (⟨S50000x16, .f32⟩ : BufTy).Contents (Elt F) :=
  Host.scatterAdd scatter_S50000x16_S850000x1_S850000x16_1_0_0_1
    (broadcastInDim S50000x16 ![] bcast_S_S50000x16 (constant S_ .f32 0x00000000#32))
    (broadcastInDim S850000x1 ![0] bcast_S850000_S850000x1_0 d)
    (mulf (Host.gather gather_S50000x16_S850000x1_S850000x16_1_0_n_n_0_1_116 h
        (broadcastInDim S850000x1 ![0] bcast_S850000_S850000x1_0 (wrap s)))
      (broadcastInDim S850000x16 ![0, 1] bcast_S850000x1_S850000x16_0_1
        (broadcastInDim S850000x1 ![0] bcast_S850000_S850000x1_0 nrm)))

end Cert.Gcn

end
-- ==== Proof.KHost.lean ====
import proofs.«165771_j1709396984302_1_alg».proof.Proof.Gen.KernelIdeal.Frame
import proofs.«165771_j1709396984302_1_alg».proof.Proof.Chain

/-!
  The kernel's host stretches between its regions, read back.

  @main is nine segments: three host stretches (the edge lists with their self-loops, the degrees, the edge weights),
  the first product, a host stretch (the aggregation at 64 features, and the first bias as a [1, 64] row), the bias and
  maximum region, the second product, a host stretch (the aggregation at 16 features, the second bias as a [1, 16] row)
  and the last bias region. Each boundary's contents are the previous boundary's with the segment applied. Here:
  what the two aggregation stretches write, as the aggregation function of what they read; and that every buffer a
  later segment reads but no segment in between writes still holds what the earlier boundary held.
-/

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- No operation of the named host stretch writes the reference at hand: each operation writes one buffer, another one. -/
local macro "not_written_by " ops:ident : tactic => `(tactic|
  exact List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## What the aggregation stretches write -/

set_option maxHeartbeats 400000 in
/-- After the first product: the aggregated array is the aggregation of the product, the edge lists and the weights. -/
theorem W5_v45 (c : Dev nD) :
    W5 m ρ c (Proc.devRef .tc main_v45)
      = Cert.Gcn.agg64 (W4 m ρ c (Proc.devRef .tc main_v32)) (W4 m ρ c (Proc.devRef .tc main_v5))
          (W4 m ρ c (Proc.devRef .tc main_v6)) (W4 m ρ c (Proc.devRef .tc main_v31)) := by
  show StableHlo.after hostOps1 (W4 m ρ c) (Proc.devRef .tc main_v45) = _
  generalize W4 m ρ c = W
  dsimp only [hostOps1]
  after_results
  rfl

set_option maxHeartbeats 400000 in
/-- and the first bias vector is laid out as a [1, 64] row. -/
theorem W5_v46 (c : Dev nD) :
    W5 m ρ c (Proc.devRef .tc main_v46)
      = shapeCast S1x64 (W4 m ρ c (Proc.devRef .tc main_arg3)) shapeCasts_S64_S1x64 := by
  show StableHlo.after hostOps1 (W4 m ρ c) (Proc.devRef .tc main_v46) = _
  generalize W4 m ρ c = W
  dsimp only [hostOps1]
  after_results
  rfl

set_option maxHeartbeats 400000 in
/-- After the second product: the aggregated array is the aggregation of the product, the edge lists and the weights. -/
theorem W8_v61 (c : Dev nD) :
    W8 m ρ c (Proc.devRef .tc main_v61)
      = Cert.Gcn.agg16 (W7 m ρ c (Proc.devRef .tc main_v48)) (W7 m ρ c (Proc.devRef .tc main_v5))
          (W7 m ρ c (Proc.devRef .tc main_v6)) (W7 m ρ c (Proc.devRef .tc main_v31)) := by
  show StableHlo.after hostOps3 (W7 m ρ c) (Proc.devRef .tc main_v61) = _
  generalize W7 m ρ c = W
  dsimp only [hostOps3]
  after_results
  rfl

set_option maxHeartbeats 400000 in
/-- and the second bias vector is laid out as a [1, 16] row. -/
theorem W8_v62 (c : Dev nD) :
    W8 m ρ c (Proc.devRef .tc main_v62)
      = shapeCast S1x16 (W7 m ρ c (Proc.devRef .tc main_arg5)) shapeCasts_S16_S1x16 := by
  show StableHlo.after hostOps3 (W7 m ρ c) (Proc.devRef .tc main_v62) = _
  generalize W7 m ρ c = W
  dsimp only [hostOps3]
  after_results
  rfl

/-! ## What is left alone -/

/-- A buffer the first three host stretches do not write holds, when the first product is entered, what it was launched with. -/
theorem W3_kept (c : Dev nD) (b : Ref sig .tc)
    (h0 : ∀ op ∈ (hostOps0 : List (HloOp τ sig (Elt F))), (Proc.devRef .tc b : DevRef τ sig) ∉ op.writes)
    (h1 : ∀ op ∈ (hostOps0_1 : List (HloOp τ sig (Elt F))), (Proc.devRef .tc b : DevRef τ sig) ∉ op.writes)
    (h2 : ∀ op ∈ (hostOps0_2 : List (HloOp τ sig (Elt F))), (Proc.devRef .tc b : DevRef τ sig) ∉ op.writes) :
    W3 m ρ c (Proc.devRef .tc b) = m ((c : Thread nD τ).loc b) :=
  (StableHlo.after_of_forall_not_mem _ _ h2).trans
    ((StableHlo.after_of_forall_not_mem _ _ h1).trans ((StableHlo.after_of_forall_not_mem _ _ h0).trans rfl))

/-- A buffer that is no array of the first three regions and that the stretch between the first two does not write holds,
    when the last host stretch is entered, what it held when the first product was entered. -/
theorem W7_kept (c : Dev nD) (b : Ref sig .tc) (h2 : ∀ w, Pipeline.arrRef spec2 w ≠ b) (h1 : ∀ w, Pipeline.arrRef spec1 w ≠ b)
    (hh : ∀ op ∈ (hostOps1 : List (HloOp τ sig (Elt F))), (Proc.devRef .tc b : DevRef τ sig) ∉ op.writes)
    (h0 : ∀ w, Pipeline.arrRef spec0 w ≠ b) :
    W7 m ρ c (Proc.devRef .tc b) = W3 m ρ c (Proc.devRef .tc b) :=
  (W7_of_ne m ρ c b h2).trans ((W6_of_ne m ρ c b h1).trans
    ((StableHlo.after_of_forall_not_mem _ _ hh).trans (W4_of_ne m ρ c b h0)))

theorem W3_arg0 (c : Dev nD) : W3 m ρ c (Proc.devRef .tc main_arg0) = m ((c : Thread nD τ).loc main_arg0) :=
  W3_kept m ρ c main_arg0 (by not_written_by hostOps0) (by not_written_by hostOps0_1) (by not_written_by hostOps0_2)
theorem W3_arg2 (c : Dev nD) : W3 m ρ c (Proc.devRef .tc main_arg2) = m ((c : Thread nD τ).loc main_arg2) :=
  W3_kept m ρ c main_arg2 (by not_written_by hostOps0) (by not_written_by hostOps0_1) (by not_written_by hostOps0_2)
theorem W3_arg3 (c : Dev nD) : W3 m ρ c (Proc.devRef .tc main_arg3) = m ((c : Thread nD τ).loc main_arg3) :=
  W3_kept m ρ c main_arg3 (by not_written_by hostOps0) (by not_written_by hostOps0_1) (by not_written_by hostOps0_2)
theorem W3_arg4 (c : Dev nD) : W3 m ρ c (Proc.devRef .tc main_arg4) = m ((c : Thread nD τ).loc main_arg4) :=
  W3_kept m ρ c main_arg4 (by not_written_by hostOps0) (by not_written_by hostOps0_1) (by not_written_by hostOps0_2)
theorem W3_arg5 (c : Dev nD) : W3 m ρ c (Proc.devRef .tc main_arg5) = m ((c : Thread nD τ).loc main_arg5) :=
  W3_kept m ρ c main_arg5 (by not_written_by hostOps0) (by not_written_by hostOps0_1) (by not_written_by hostOps0_2)

/-- The first bias vector, when the stretch after the first product is entered. -/
theorem W4_arg3 (c : Dev nD) : W4 m ρ c (Proc.devRef .tc main_arg3) = m ((c : Thread nD τ).loc main_arg3) :=
  (W4_of_ne m ρ c main_arg3 (by decide)).trans (W3_arg3 m ρ c)

/-- The second weight, when the second product is entered. -/
theorem W6_arg4 (c : Dev nD) : W6 m ρ c (Proc.devRef .tc main_arg4) = m ((c : Thread nD τ).loc main_arg4) :=
  (W6_of_ne m ρ c main_arg4 (by decide)).trans
    ((StableHlo.after_of_forall_not_mem (b := Proc.devRef .tc main_arg4) _ _ (by not_written_by hostOps1)).trans
      ((W4_of_ne m ρ c main_arg4 (by decide)).trans (W3_arg4 m ρ c)))

/-- The second bias vector, when the last host stretch is entered. -/
theorem W7_arg5 (c : Dev nD) : W7 m ρ c (Proc.devRef .tc main_arg5) = m ((c : Thread nD τ).loc main_arg5) :=
  (W7_kept m ρ c main_arg5 (by decide) (by decide) (by not_written_by hostOps1) (by decide)).trans (W3_arg5 m ρ c)

/-- The edge sources, the edge targets and the edge weights are computed before the first product and never written again. -/
theorem W4_v5 (c : Dev nD) : W4 m ρ c (Proc.devRef .tc main_v5) = W3 m ρ c (Proc.devRef .tc main_v5) := W4_of_ne m ρ c main_v5 (by decide)
theorem W4_v6 (c : Dev nD) : W4 m ρ c (Proc.devRef .tc main_v6) = W3 m ρ c (Proc.devRef .tc main_v6) := W4_of_ne m ρ c main_v6 (by decide)
theorem W4_v31 (c : Dev nD) : W4 m ρ c (Proc.devRef .tc main_v31) = W3 m ρ c (Proc.devRef .tc main_v31) := W4_of_ne m ρ c main_v31 (by decide)
theorem W7_v5 (c : Dev nD) : W7 m ρ c (Proc.devRef .tc main_v5) = W3 m ρ c (Proc.devRef .tc main_v5) :=
  W7_kept m ρ c main_v5 (by decide) (by decide) (by not_written_by hostOps1) (by decide)
theorem W7_v6 (c : Dev nD) : W7 m ρ c (Proc.devRef .tc main_v6) = W3 m ρ c (Proc.devRef .tc main_v6) :=
  W7_kept m ρ c main_v6 (by decide) (by decide) (by not_written_by hostOps1) (by decide)
theorem W7_v31 (c : Dev nD) : W7 m ρ c (Proc.devRef .tc main_v31) = W3 m ρ c (Proc.devRef .tc main_v31) :=
  W7_kept m ρ c main_v31 (by decide) (by decide) (by not_written_by hostOps1) (by decide)

end Cert.KernelIdeal.HostValue

end
-- ==== Proof.Spec.lean ====
import Idealize.ShloMosaic.PureOps.Ideal.Laws
import Idealize.ShloMosaic.Lib.ValueIdx
import Idealize.ShloMosaic.Lib.Pipeline.Value

/-!
  The three whole-array functions a two-layer graph convolution is made of, over the extended reals, index by index.

  * `mm x w`: the product of an [M, K] array by a [K, N] array; entry (p, q) is the sum over k of x(p, k) · w(k, q).
  * `biasRow a b`: a row vector b of shape [1, N] added to every row of a.
  * `biasRowRelu a b`: the same, followed by the maximum with zero.

  A block of rows of any of the three is the same function of the matching block of rows of its first operand
  (and the whole second operand): each entry depends on one row of the first operand only. That is what lets a kernel
  compute them 2000 rows at a time.
-/

open scoped BigOperators

noncomputable section

namespace Cert.Gcn

open Idealize.ShloMosaic Idealize.ShloMosaic.ValueIdx

/-- An array of extended reals of shape [a, b]. -/
abbrev Arr2 (a b : Nat) : Type := (⟨2, ![a, b]⟩ : Shape).Idx → EReal

/-- The matrix product: entry (p, q) is the sum over k of x(p, k) · w(k, q). -/
def mm {M K N : Nat} (x : Arr2 M K) (w : Arr2 K N) : Arr2 M N :=
  fun i => ∑ k : Fin K, x (ix2 (i 0) k) * w (ix2 k (i 1))

theorem mm_apply {M K N : Nat} (x : Arr2 M K) (w : Arr2 K N) (p : Fin M) (q : Fin N) :
    mm x w (ix2 p q) = ∑ k : Fin K, x (ix2 p k) * w (ix2 k q) := rfl

/-- The zero of the 32-bit floats, as the extended real it denotes; never evaluated: both programs spell it with this word. -/
abbrev z32 : EReal := Ideal.ofBits .f32 0x00000000#32

/-- A [1, N] row added to every row of a. -/
def biasRow {M N : Nat} (a : Arr2 M N) (b : Arr2 1 N) : Arr2 M N :=
  fun i => a i + b (ix2 0 (i 1))

theorem biasRow_apply {M N : Nat} (a : Arr2 M N) (b : Arr2 1 N) (p : Fin M) (q : Fin N) :
    biasRow a b (ix2 p q) = a (ix2 p q) + b (ix2 0 q) := rfl

/-- A [1, N] row added to every row of a, then the maximum with zero. -/
def biasRowRelu {M N : Nat} (a : Arr2 M N) (b : Arr2 1 N) : Arr2 M N :=
  fun i => max (a i + b (ix2 0 (i 1))) z32

theorem biasRowRelu_apply {M N : Nat} (a : Arr2 M N) (b : Arr2 1 N) (p : Fin M) (q : Fin N) :
    biasRowRelu a b (ix2 p q) = max (a (ix2 p q) + b (ix2 0 q)) z32 := rfl

end Cert.Gcn

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.RegionMM.lean ====
import proofs.«165771_j1709396984302_1_alg».proof.Proof.Gen.KernelIdeal.Frame
import proofs.«165771_j1709396984302_1_alg».proof.Proof.Spec
import proofs.«165771_j1709396984302_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

/-!
  The two matrix-product regions, each as ONE whole-array function of the arrays it is entered with.

  A region walks 25 grid points; point t stages rows 2000·t … 2000·t + 1999 of its first operand and the whole second
  operand, multiplies them, and writes the product back as rows 2000·t … 2000·t + 1999 of the output. Entry (p, q) of
  a product depends on row p of the first operand only, so the block of rows that point t writes is the same block of
  rows of the product of the WHOLE arrays; the 25 blocks tile the 50000 rows, so the output array ends holding that
  product. Narrowing an operand to 16-bit floats before the product changes nothing over the extended reals.
-/

set_option maxRecDepth 16384

open scoped BigOperators

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

-- the buffer contents a region is entered with: every statement below holds for any
variable (V : (c : Dev nD) → (b : Ref sig .tc) → Buf (Elt Ideal) ((c : Thread nD τ).loc b))

/-- The offsets of a rectangle that starts at the origin, as the constant-zero function. -/
theorem origin2 : (![0, 0] : Fin 2 → Nat) = fun _ => 0 :=
  funext fun a => match a with | ⟨0, _⟩ => rfl | ⟨1, _⟩ => rfl

/-! ## Region 0: the [50000, 128] input times the [128, 64] weight -/

/-- The body's arithmetic at entry (p, q) of a block: narrowing is the identity over the extended reals, and the product
    accumulated into the zero array is the sum over the 128 contraction positions. -/
theorem prod0_apply (x0 : Vec Ideal S2000x128 .f32) (x1 : Vec Ideal S128x64 .f32) (p : Fin 2000) (q : Fin 64) :
    k0_pay1 (F := Ideal) x0 x1 (ix2 p q) = ∑ k : Fin 128, x0 (ix2 p k) * x1 (ix2 k q) := by
  unfold k0_pay1
  exact Cert.Lib.PlainDot.matmul_zero_apply dot_S2000x128_S128x64_S2000x64_1_0_0_1_n_n rfl rfl rfl rfl rfl rfl none _ _ p q

/-- The block indices over the 25 grid points: point t takes row block t of the first operand and of the output (column
    block 0 of both) and block (0, 0) of the second operand. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of point t's block of the first operand is entry (2000·t + p, k) of the array. -/
theorem left0_apply (c : Dev nD) (t : Fin cfg0.N) (p : Fin 2000) (k : Fin 128) (r : Fin 50000)
    (hr : r.val = t.val * 2000 + p.val) :
    (iblk0 (F := Ideal) V c 0 t : Vec Ideal S2000x128 .f32) (ix2 p k) = (V c main_arg0 : Cert.Gcn.Arr2 50000 128) (ix2 r k) := by
  obtain ⟨e0, e1, -⟩ := blocks0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Point t's block of the second operand is the whole array. -/
theorem right0_apply (c : Dev nD) (t : Fin cfg0.N) (k : Fin 128) (q : Fin 64) :
    (iblk0 (F := Ideal) V c 1 t : Vec Ideal S128x64 .f32) (ix2 k q) = (V c main_arg2 : Cert.Gcn.Arr2 128 64) (ix2 k q) := by
  obtain ⟨-, -, e2, e3, -⟩ := blocks0 t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- Entry (p, q) of point t's block of the output sits at (2000·t + p, q) in the array. -/
theorem out0_emb (t : Fin cfg0.N) (p : Fin 2000) (q : Fin 64) (r : Fin 50000) (hr : r.val = t.val * 2000 + p.val) :
    ((cfg0.win 2).blk t).view.emb (ix2 p q) = (ix2 r q : S50000x64.Idx) := by
  obtain ⟨-, -, -, -, e4, e5⟩ := blocks0 t
  refine funext fun a => Fin.ext ?_
  match a with
  | ⟨0, _⟩ => show win0_2.index t (0 : Fin 2) * 2000 + 1 * p.val = r.val; omega
  | ⟨1, _⟩ => show win0_2.index t (1 : Fin 2) * 64 + 1 * q.val = q.val; omega

/-- What point t writes back is rows 2000·t … 2000·t + 1999 of the product of the whole arrays: entry (p, q) of the block
    product reads row p of the staged rows, which is row 2000·t + p of the first operand. -/
theorem flushed0_eq (c : Dev nD) (t : Fin cfg0.N) :
    (dat0 (F := Ideal) V c).flushed 2 t
      = ((cfg0.win 2).blk t).view.read (Elt Ideal) (Cert.Gcn.mm (V c main_arg0) (V c main_arg2)) := by
  show (cfg0.win 2).cut (grid0.coords t) ((dat0 V c).after 2 t) = _
  rw [after0_2]
  unfold out0_2
  rw [View.canon_unit_zero origin2]
  simp only [View.ld_unit_zero (S := S2000x128) origin2, View.ld_unit_zero (S := S128x64) origin2]
  funext j
  obtain ⟨p, q, rfl⟩ : ∃ (p : Fin 2000) (q : Fin 64), j = ix2 p q := ⟨j 0, j 1, eq_ix2 j⟩
  refine (prod0_apply _ _ p q).trans ?_
  have ht : t.val < 25 := t.isLt
  have hr : t.val * 2000 + p.val < 50000 := by have := p.isLt; omega
  show _ = Cert.Gcn.mm (V c main_arg0) (V c main_arg2) (((cfg0.win 2).blk t).view.emb (ix2 p q))
  refine Eq.trans ?_ (congrArg (Cert.Gcn.mm (V c main_arg0) (V c main_arg2)) (out0_emb t p q ⟨_, hr⟩ rfl)).symm
  rw [Cert.Gcn.mm_apply]
  refine Finset.sum_congr rfl fun k _ => ?_
  exact congrArg₂ (· * ·) (left0_apply V c t p k ⟨_, hr⟩ rfl) (right0_apply V c t k q)

/-- An index of the output array is in point t's block iff each coordinate is in the block's range on its axis. -/
theorem mem_blk0 (t : Fin cfg0.N) (i : S50000x64.Idx) :
    i ∈ ((cfg0.win 2).blk t).view.set
      ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- Row r of the output is written by point r / 2000: the 25 blocks of 2000 rows tile the 50000 rows. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  let t : Fin cfg0.N := ⟨(i 0).val / 2000, by show (i 0).val / 2000 < 25; omega⟩
  obtain ⟨-, -, -, -, e4, e5⟩ := blocks0 t
  have e4' : win0_2.index t (0 : Fin 2) = (i 0).val / 2000 := e4
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- Region 0: the output array ends holding the product of the [50000, 128] input by the [128, 64] weight. -/
theorem arr0 (c : Dev nD) : (dat0 (F := Ideal) V c).arrAt 2 cfg0.N = Cert.Gcn.mm (V c main_arg0) (V c main_arg2) := by
  exact (dat0 (F := Ideal) V c).arrAt_eq_of_cover 2 (Cert.Gcn.mm (V c main_arg0) (V c main_arg2))
    (fun t _ => flushed0_eq V c t) cover0

/-! ## Region 2: the [50000, 64] hidden array times the [64, 16] weight -/

/-- The body's arithmetic at entry (p, q) of a block: the reshape to the same shape and the narrowing are the identity over
    the extended reals, and the product accumulated into the zero array is the sum over the 64 contraction positions. -/
theorem prod2_apply (x0 : Vec Ideal S2000x64 .f32) (x1 : Vec Ideal S64x16 .f32) (p : Fin 2000) (q : Fin 16) :
    k2_pay1 (F := Ideal) x0 x1 (ix2 p q) = ∑ k : Fin 64, x0 (ix2 p k) * x1 (ix2 k q) := by
  unfold k2_pay1
  rw [shapeCast_self]
  exact Cert.Lib.PlainDot.matmul_zero_apply dot_S2000x64_S64x16_S2000x16_1_0_0_1_n_n rfl rfl rfl rfl rfl rfl none _ _ p q

/-- The block indices over the 25 grid points: point t takes row block t of the first operand and of the output (column
    block 0 of both) and block (0, 0) of the second operand. -/
theorem blocks2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of point t's block of the first operand is entry (2000·t + p, k) of the array. -/
theorem left2_apply (c : Dev nD) (t : Fin cfg2.N) (p : Fin 2000) (k : Fin 64) (r : Fin 50000)
    (hr : r.val = t.val * 2000 + p.val) :
    (iblk2 (F := Ideal) V c 0 t : Vec Ideal S2000x64 .f32) (ix2 p k) = (V c main_v47 : Cert.Gcn.Arr2 50000 64) (ix2 r k) := by
  obtain ⟨e0, e1, -⟩ := blocks2 t
  show V c main_v47 (((cfg2.win 0).blk t).view.emb (ix2 p k)) = V c main_v47 (ix2 r k)
  refine congrArg (V c main_v47) (funext fun a => Fin.ext ?_)
  match a with
  | ⟨0, _⟩ => show win2_0.index t (0 : Fin 2) * 2000 + 1 * p.val = r.val; omega
  | ⟨1, _⟩ => show win2_0.index t (1 : Fin 2) * 64 + 1 * k.val = k.val; omega

/-- Point t's block of the second operand is the whole array. -/
theorem right2_apply (c : Dev nD) (t : Fin cfg2.N) (k : Fin 64) (q : Fin 16) :
    (iblk2 (F := Ideal) V c 1 t : Vec Ideal S64x16 .f32) (ix2 k q) = (V c main_arg4 : Cert.Gcn.Arr2 64 16) (ix2 k q) := by
  obtain ⟨-, -, e2, e3, -⟩ := blocks2 t
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 64 + 1 * k.val = k.val; omega
  | ⟨1, _⟩ => show win2_1.index t (1 : Fin 2) * 16 + 1 * q.val = q.val; omega

/-- Entry (p, q) of point t's block of the output sits at (2000·t + p, q) in the array. -/
theorem out2_emb (t : Fin cfg2.N) (p : Fin 2000) (q : Fin 16) (r : Fin 50000) (hr : r.val = t.val * 2000 + p.val) :
    ((cfg2.win 2).blk t).view.emb (ix2 p q) = (ix2 r q : S50000x16.Idx) := by
  obtain ⟨-, -, -, -, e4, e5⟩ := blocks2 t
  refine funext fun a => Fin.ext ?_
  match a with
  | ⟨0, _⟩ => show win2_2.index t (0 : Fin 2) * 2000 + 1 * p.val = r.val; omega
  | ⟨1, _⟩ => show win2_2.index t (1 : Fin 2) * 16 + 1 * q.val = q.val; omega

/-- What point t writes back is rows 2000·t … 2000·t + 1999 of the product of the whole arrays: entry (p, q) of the block
    product reads row p of the staged rows, which is row 2000·t + p of the first operand. -/
theorem flushed2_eq (c : Dev nD) (t : Fin cfg2.N) :
    (dat2 (F := Ideal) V c).flushed 2 t
      = ((cfg2.win 2).blk t).view.read (Elt Ideal) (Cert.Gcn.mm (V c main_v47) (V c main_arg4)) := by
  show (cfg2.win 2).cut (grid2.coords t) ((dat2 V c).after 2 t) = _
  rw [after2_2]
  unfold out2_2
  rw [View.canon_unit_zero origin2]
  simp only [View.ld_unit_zero (S := S2000x64) origin2, View.ld_unit_zero (S := S64x16) origin2]
  funext j
  obtain ⟨p, q, rfl⟩ : ∃ (p : Fin 2000) (q : Fin 16), j = ix2 p q := ⟨j 0, j 1, eq_ix2 j⟩
  refine (prod2_apply _ _ p q).trans ?_
  have ht : t.val < 25 := t.isLt
  have hr : t.val * 2000 + p.val < 50000 := by have := p.isLt; omega
  show _ = Cert.Gcn.mm (V c main_v47) (V c main_arg4) (((cfg2.win 2).blk t).view.emb (ix2 p q))
  refine Eq.trans ?_ (congrArg (Cert.Gcn.mm (V c main_v47) (V c main_arg4)) (out2_emb t p q ⟨_, hr⟩ rfl)).symm
  rw [Cert.Gcn.mm_apply]
  refine Finset.sum_congr rfl fun k _ => ?_
  exact congrArg₂ (· * ·) (left2_apply V c t p k ⟨_, hr⟩ rfl) (right2_apply V c t k q)

/-- An index of the output array is in point t's block iff each coordinate is in the block's range on its axis. -/
theorem mem_blk2 (t : Fin cfg2.N) (i : S50000x16.Idx) :
    i ∈ ((cfg2.win 2).blk t).view.set
      ↔ ∀ a : Fin 2, win2_2.index t a * S2000x16.size a ≤ (i a).val ∧ (i a).val < win2_2.index t a * S2000x16.size a + S2000x16.size a := by
  show i ∈ ((View.whole main_v48).slice (win2_2.rect t)).set ↔ _
  rw [View.set_slice_whole, Rect.mem_set_unit]
  exact Iff.rfl

/-- Row r of the output is written by point r / 2000: the 25 blocks of 2000 rows tile the 50000 rows. -/
theorem cover2 (i : S50000x16.Idx) : ∃ t : Fin cfg2.N, (cfg2.win 2).flush t = true ∧ i ∈ ((cfg2.win 2).blk t).view.set := by
  have hi0 : (i 0).val < 50000 := (i 0).isLt
  have hi1 : (i 1).val < 16 := (i 1).isLt
  let t : Fin cfg2.N := ⟨(i 0).val / 2000, by show (i 0).val / 2000 < 25; omega⟩
  obtain ⟨-, -, -, -, e4, e5⟩ := blocks2 t
  have e4' : win2_2.index t (0 : Fin 2) = (i 0).val / 2000 := e4
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- Region 2: the output array ends holding the product of the [50000, 64] hidden array by the [64, 16] weight. -/
theorem arr2 (c : Dev nD) : (dat2 (F := Ideal) V c).arrAt 2 cfg2.N = Cert.Gcn.mm (V c main_v47) (V c main_arg4) := by
  exact (dat2 (F := Ideal) V c).arrAt_eq_of_cover 2 (Cert.Gcn.mm (V c main_v47) (V c main_arg4))
    (fun t _ => flushed2_eq V c t) cover2

end Cert.KernelIdeal.RegionValue

end
-- ==== Proof.RegionBias.lean ====
import proofs.«165771_j1709396984302_1_alg».proof.Proof.Gen.KernelIdeal.Frame
import proofs.«165771_j1709396984302_1_alg».proof.Proof.Spec
import proofs.«165771_j1709396984302_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

/-!
  The two bias regions, each as ONE whole-array function of the arrays it is entered with.

  A region walks 25 grid points; point t stages rows 2000·t … 2000·t + 1999 of the aggregated array and the whole
  [1, N] bias row, adds the bias row to every staged row (region 1 then takes the maximum with zero), and writes the
  result back as the same rows of the output. Each entry depends on one entry of the aggregated array and one of the
  bias row, so the block that point t writes is the same block of the function of the WHOLE arrays; the 25 blocks tile
  the 50000 rows.
-/

set_option maxRecDepth 16384

open scoped BigOperators

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

-- the buffer contents a region is entered with: every statement below holds for any
variable (V : (c : Dev nD) → (b : Ref sig .tc) → Buf (Elt Ideal) ((c : Thread nD τ).loc b))

/-! ## Region 1: the bias row added to every row, then the maximum with zero -/

/-- The zero offsets of an access to a whole staging buffer, as the constant function. -/
theorem zeroOff : (![0, 0] : Fin 2 → Nat) = fun _ => 0 := funext fun a => match a with | ⟨0, _⟩ => rfl | ⟨1, _⟩ => rfl

/-- The body's arithmetic at entry (p, q): the staged entry (p, q) plus the staged bias row's entry (0, q), then the
    maximum with zero. The two shape casts are between equal shapes, and the one row broadcast over 2000 rows reads,
    at (p, q), the row at column q. -/
theorem reluPay_apply (x0 : Vec Ideal S2000x64 .f32) (x1 : Vec Ideal S1x64 .f32) (p : Fin 2000) (q : Fin 64) :
    k1_pay1 (F := Ideal) x0 x1 (ix2 p q) = max (x0 (ix2 p q) + x1 (ix2 0 q)) Cert.Gcn.z32 := by
  unfold k1_pay1
  show max (shapeCast S2000x64 x0 shapeCasts_S2000x64_S2000x64 (ix2 p q) + broadcastTo S2000x64 (shapeCast S1x64 x1 shapeCasts_S1x64_S1x64) broadcasts_S1x64_S2000x64 (ix2 p q)) _ = _
  rw [shapeCast_self, shapeCast_self, broadcastTo_1b_ab_apply]
  rfl

/-- The index maps, decided once over the 25 grid points: at point t the aggregated array's window and the output's
    window both sit at block row t, block column 0; the bias row's window sits at block (0, 0) at every point. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 2000·t … 2000·t + 1999 of max(agg + bias row, 0) of the WHOLE arrays: entry (p, q)
    of the written block comes from entry (p, q) of the staged block of agg, which is entry (2000·t + p, q) of agg, and
    from entry (0, q) of the staged bias row, which is entry (0, q) of the bias row; entry (p, q) of the output's block is
    entry (2000·t + p, q) of the output. -/
theorem flushed1_eq (c : Dev nD) (t : Fin cfg1.N) :
    (dat1 (F := Ideal) V c).flushed 2 t = ((cfg1.win 2).blk t).view.read (Elt Ideal) (Cert.Gcn.biasRowRelu (V c main_v45) (V c main_v46)) := by
  show (cfg1.win 2).cut (grid1.coords t) ((dat1 V c).after 2 t) = _
  rw [after1_2]
  unfold out1_2
  rw [View.canon_unit_zero zeroOff]
  simp only [View.ld_unit_zero (S := S2000x64) zeroOff, View.ld_unit_zero (S := S1x64) zeroOff]
  funext j
  obtain ⟨p, q, rfl⟩ : ∃ (p : Fin 2000) (q : Fin 64), j = ix2 p q := ⟨j 0, j 1, eq_ix2 j⟩
  refine (reluPay_apply (iblk1 V c 0 t) (iblk1 V c 1 t) p q).trans ?_
  obtain ⟨e00, e01, e10, e11, e20, e21⟩ := blockIdx1 t
  have ht : t.val < 25 := t.isLt
  have hp : p.val < 2000 := p.isLt
  have hr : 2000 * t.val + p.val < 50000 := by omega
  -- entry (p, q) of the output's block is entry (2000·t + p, q) of the output
  have hout : ((cfg1.win 2).blk t).view.emb (ix2 p q) = ix2 (⟨2000 * t.val + p.val, hr⟩ : Fin 50000) q := by
    funext a; apply Fin.ext
    match a with
    | ⟨0, _⟩ => show win1_2.index t (0 : Fin 2) * 2000 + 1 * p.val = 2000 * t.val + p.val; omega
    | ⟨1, _⟩ => show win1_2.index t (1 : Fin 2) * 64 + 1 * q.val = q.val; omega
  -- entry (p, q) of the staged block of agg is entry (2000·t + p, q) of agg
  have h0 : (iblk1 V c 0 t : Vec Ideal S2000x64 .f32) (ix2 p q) = V c main_v45 (ix2 (⟨2000 * t.val + p.val, hr⟩ : Fin 50000) q) := by
    show V c main_v45 (((cfg1.win 0).blk t).view.emb (ix2 p q)) = _
    refine congrArg (V c main_v45) ?_
    funext a; apply Fin.ext
    match a with
    | ⟨0, _⟩ => show win1_0.index t (0 : Fin 2) * 2000 + 1 * p.val = 2000 * t.val + p.val; omega
    | ⟨1, _⟩ => show win1_0.index t (1 : Fin 2) * 64 + 1 * q.val = q.val; omega
  -- the staged bias row is the whole bias row
  have h1 : (iblk1 V c 1 t : Vec Ideal S1x64 .f32) (ix2 0 q) = V c main_v46 (ix2 0 q) := by
    show V c main_v46 (((cfg1.win 1).blk t).view.emb (ix2 0 q)) = _
    refine congrArg (V c main_v46) ?_
    funext a; apply Fin.ext
    match a with
    | ⟨0, _⟩ => show win1_1.index t (0 : Fin 2) * 1 + 1 * 0 = 0; omega
    | ⟨1, _⟩ => show win1_1.index t (1 : Fin 2) * 64 + 1 * q.val = q.val; omega
  rw [View.read_apply, hout, Cert.Gcn.biasRowRelu_apply]
  exact congrArg₂ (fun a b => max (a + b) Cert.Gcn.z32) h0 h1

/-- An index of the output array lies in point t's block iff each coordinate lies in the block's range on its axis. -/
theorem mem_rows1 (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v47).slice (win1_2.rect t)).set ↔ _
  rw [View.set_slice_whole, Rect.mem_set_unit]
  exact Iff.rfl

/-- The 25 blocks of 2000 rows tile the 50000 rows: row r lies in the block of point r / 2000, and every point writes
    its block back. -/
theorem rows_cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : (i 0).val / 2000 < 25 := by omega
  refine ⟨⟨(i 0).val / 2000, hN⟩, flush1_2 _, ?_⟩
  rw [mem_rows1]
  obtain ⟨-, -, -, -, e20, e21⟩ := blockIdx1 ⟨(i 0).val / 2000, hN⟩
  have e20' : win1_2.index ⟨(i 0).val / 2000, hN⟩ (0 : Fin 2) = (i 0).val / 2000 := e20
  intro a
  match a with
  | ⟨0, _⟩ => show win1_2.index ⟨(i 0).val / 2000, hN⟩ (0 : Fin 2) * 2000 ≤ (i 0).val ∧ (i 0).val < win1_2.index ⟨(i 0).val / 2000, hN⟩ (0 : Fin 2) * 2000 + 2000; omega
  | ⟨1, _⟩ => show win1_2.index ⟨(i 0).val / 2000, hN⟩ (1 : Fin 2) * 64 ≤ (i 1).val ∧ (i 1).val < win1_2.index ⟨(i 0).val / 2000, hN⟩ (1 : Fin 2) * 64 + 64; omega

/-- Region 1: the output array ends holding max(agg + bias row, 0), entry by entry. -/
theorem arr1 (c : Dev nD) : (dat1 (F := Ideal) V c).arrAt 2 cfg1.N = Cert.Gcn.biasRowRelu (V c main_v45) (V c main_v46) := by
  exact (dat1 (F := Ideal) V c).arrAt_eq_of_cover 2 (Cert.Gcn.biasRowRelu (V c main_v45) (V c main_v46)) (fun t _ => flushed1_eq V c t) rows_cover1

/-! ## Region 3: the bias row added to every row -/

/-- The body's arithmetic at entry (p, q): the staged entry (p, q) plus the staged bias row's entry (0, q). The two shape
    casts are between equal shapes, and the one row broadcast over 2000 rows reads, at (p, q), the row at column q. -/
theorem sumPay_apply (x0 : Vec Ideal S2000x16 .f32) (x1 : Vec Ideal S1x16 .f32) (p : Fin 2000) (q : Fin 16) :
    k3_pay1 (F := Ideal) x0 x1 (ix2 p q) = x0 (ix2 p q) + x1 (ix2 0 q) := by
  unfold k3_pay1
  show shapeCast S2000x16 x0 shapeCasts_S2000x16_S2000x16 (ix2 p q) + broadcastTo S2000x16 (shapeCast S1x16 x1 shapeCasts_S1x16_S1x16) broadcasts_S1x16_S2000x16 (ix2 p q) = _
  rw [shapeCast_self, shapeCast_self, broadcastTo_1b_ab_apply]

/-- The index maps, decided once over the 25 grid points: at point t the aggregated array's window and the output's
    window both sit at block row t, block column 0; the bias row's window sits at block (0, 0) at every point. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is rows 2000·t … 2000·t + 1999 of agg + bias row of the WHOLE arrays: entry (p, q)
    of the written block comes from entry (p, q) of the staged block of agg, which is entry (2000·t + p, q) of agg, and
    from entry (0, q) of the staged bias row, which is entry (0, q) of the bias row; entry (p, q) of the output's block is
    entry (2000·t + p, q) of the output. -/
theorem flushed3_eq (c : Dev nD) (t : Fin cfg3.N) :
    (dat3 (F := Ideal) V c).flushed 2 t = ((cfg3.win 2).blk t).view.read (Elt Ideal) (Cert.Gcn.biasRow (V c main_v61) (V c main_v62)) := by
  show (cfg3.win 2).cut (grid3.coords t) ((dat3 V c).after 2 t) = _
  rw [after3_2]
  unfold out3_2
  rw [View.canon_unit_zero zeroOff]
  simp only [View.ld_unit_zero (S := S2000x16) zeroOff, View.ld_unit_zero (S := S1x16) zeroOff]
  funext j
  obtain ⟨p, q, rfl⟩ : ∃ (p : Fin 2000) (q : Fin 16), j = ix2 p q := ⟨j 0, j 1, eq_ix2 j⟩
  refine (sumPay_apply (iblk3 V c 0 t) (iblk3 V c 1 t) p q).trans ?_
  obtain ⟨e00, e01, e10, e11, e20, e21⟩ := blockIdx3 t
  have ht : t.val < 25 := t.isLt
  have hp : p.val < 2000 := p.isLt
  have hr : 2000 * t.val + p.val < 50000 := by omega
  -- entry (p, q) of the output's block is entry (2000·t + p, q) of the output
  have hout : ((cfg3.win 2).blk t).view.emb (ix2 p q) = ix2 (⟨2000 * t.val + p.val, hr⟩ : Fin 50000) q := by
    funext a; apply Fin.ext
    match a with
    | ⟨0, _⟩ => show win3_2.index t (0 : Fin 2) * 2000 + 1 * p.val = 2000 * t.val + p.val; omega
    | ⟨1, _⟩ => show win3_2.index t (1 : Fin 2) * 16 + 1 * q.val = q.val; omega
  -- entry (p, q) of the staged block of agg is entry (2000·t + p, q) of agg
  have h0 : (iblk3 V c 0 t : Vec Ideal S2000x16 .f32) (ix2 p q) = V c main_v61 (ix2 (⟨2000 * t.val + p.val, hr⟩ : Fin 50000) q) := by
    show V c main_v61 (((cfg3.win 0).blk t).view.emb (ix2 p q)) = _
    refine congrArg (V c main_v61) ?_
    funext a; apply Fin.ext
    match a with
    | ⟨0, _⟩ => show win3_0.index t (0 : Fin 2) * 2000 + 1 * p.val = 2000 * t.val + p.val; omega
    | ⟨1, _⟩ => show win3_0.index t (1 : Fin 2) * 16 + 1 * q.val = q.val; omega
  -- the staged bias row is the whole bias row
  have h1 : (iblk3 V c 1 t : Vec Ideal S1x16 .f32) (ix2 0 q) = V c main_v62 (ix2 0 q) := by
    show V c main_v62 (((cfg3.win 1).blk t).view.emb (ix2 0 q)) = _
    refine congrArg (V c main_v62) ?_
    funext a; apply Fin.ext
    match a with
    | ⟨0, _⟩ => show win3_1.index t (0 : Fin 2) * 1 + 1 * 0 = 0; omega
    | ⟨1, _⟩ => show win3_1.index t (1 : Fin 2) * 16 + 1 * q.val = q.val; omega
  rw [View.read_apply, hout, Cert.Gcn.biasRow_apply]
  exact congrArg₂ (fun a b => a + b) h0 h1

/-- An index of the output array lies in point t's block iff each coordinate lies in the block's range on its axis. -/
theorem mem_rows3 (t : Fin cfg3.N) (i : S50000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v63).slice (win3_2.rect t)).set ↔ _
  rw [View.set_slice_whole, Rect.mem_set_unit]
  exact Iff.rfl

/-- The 25 blocks of 2000 rows tile the 50000 rows: row r lies in the block of point r / 2000, and every point writes
    its block back. -/
theorem rows_cover3 (i : S50000x16.Idx) : ∃ t : Fin cfg3.N, (cfg3.win 2).flush t = true ∧ i ∈ ((cfg3.win 2).blk t).view.set := by
  have hi0 : (i 0).val < 50000 := (i 0).isLt
  have hi1 : (i 1).val < 16 := (i 1).isLt
  have hN : (i 0).val / 2000 < 25 := by omega
  refine ⟨⟨(i 0).val / 2000, hN⟩, flush3_2 _, ?_⟩
  rw [mem_rows3]
  obtain ⟨-, -, -, -, e20, e21⟩ := blockIdx3 ⟨(i 0).val / 2000, hN⟩
  have e20' : win3_2.index ⟨(i 0).val / 2000, hN⟩ (0 : Fin 2) = (i 0).val / 2000 := e20
  intro a
  match a with
  | ⟨0, _⟩ => show win3_2.index ⟨(i 0).val / 2000, hN⟩ (0 : Fin 2) * 2000 ≤ (i 0).val ∧ (i 0).val < win3_2.index ⟨(i 0).val / 2000, hN⟩ (0 : Fin 2) * 2000 + 2000; omega
  | ⟨1, _⟩ => show win3_2.index ⟨(i 0).val / 2000, hN⟩ (1 : Fin 2) * 16 ≤ (i 1).val ∧ (i 1).val < win3_2.index ⟨(i 0).val / 2000, hN⟩ (1 : Fin 2) * 16 + 16; omega

/-- Region 3: the output array ends holding agg + bias row, entry by entry. -/
theorem arr3 (c : Dev nD) : (dat3 (F := Ideal) V c).arrAt 2 cfg3.N = Cert.Gcn.biasRow (V c main_v61) (V c main_v62) := by
  exact (dat3 (F := Ideal) V c).arrAt_eq_of_cover 2 (Cert.Gcn.biasRow (V c main_v61) (V c main_v62)) (fun t _ => flushed3_eq V c t) rows_cover3

end Cert.KernelIdeal.RegionValue

end
-- ==== Proof.Net.lean ====
import proofs.«165771_j1709396984302_1_alg».proof.Proof.Spec
import proofs.«165771_j1709396984302_1_alg».proof.Proof.Chain
import Idealize.ShloMosaic.Lib.Pipeline.Value

/-!
  The whole two-layer graph convolution as ONE function of its inputs over the extended reals: the node features x, the
  edge sources s, targets d and weights n (all three functions of the edge list alone), the two weight matrices and the
  two bias rows.

      out = agg(relu(agg(x · W1) + b1) · W2) + b2

  Both programs are shown to compute this function: the kernel from its four tiled regions and the host stretches
  between them, the reference from its host operations.
-/

noncomputable section

namespace Cert.Gcn

open Cert.ReferenceIdeal Idealize.ShloMosaic Idealize.ShloMosaic.ValueIdx

/-- The network. -/
def net (x : Arr2 50000 128) (s d : (⟨S850000, .i32⟩ : BufTy).Contents (Elt Ideal))
    (n : (⟨S850000, .f32⟩ : BufTy).Contents (Elt Ideal)) (w1 : Arr2 128 64) (b1 : Arr2 1 64) (w2 : Arr2 64 16) (b2 : Arr2 1 16) :
    Arr2 50000 16 :=
  biasRow (agg16 (F := Ideal) (mm (biasRowRelu (agg64 (F := Ideal) (mm x w1) s d n) b1) w2) s d n) b2

/-- A vector of N entries laid out as a [1, N] row reads, at (0, q), the vector's entry q. -/
theorem rowCast_apply {α : Type} {N : Nat} (b : (⟨1, ![N]⟩ : Shape).Idx → α)
    (h : (⟨1, ![N]⟩ : Shape).ShapeCasts ⟨2, ![1, N]⟩) (q : Fin N) :
    shapeCast ⟨2, ![1, N]⟩ b h (ix2 0 q) = b (ix1 q) := by
  refine (shapeCast_addUnit_apply ![N] b h (ix2 0 q)).trans (congrArg b ?_)
  funext a
  match a with
  | ⟨0, _⟩ => rfl

end Cert.Gcn

end
-- ==== Proof.KValue.lean ====
import proofs.«165771_j1709396984302_1_alg».proof.Proof.KHost
import proofs.«165771_j1709396984302_1_alg».proof.Proof.RegionMM
import proofs.«165771_j1709396984302_1_alg».proof.Proof.RegionBias
import proofs.«165771_j1709396984302_1_alg».proof.Proof.Net

/-!
  The idealized kernel computes the network.

  The result buffer is the last region's output array: the second aggregation plus the second bias row. The second
  aggregation reads the second product, which reads the output of the bias-and-maximum region, which reads the first
  aggregation, which reads the first product of the launch arrays. Every other buffer a segment reads is one no segment
  in between has written. So the result is the network of the launch arrays and of the edge sources, targets and
  weights as they stand when the first product is entered.
-/

set_option maxRecDepth 16384

noncomputable section

namespace Cert.KernelIdeal.KernelValue

open Cert.KernelIdeal Cert.KernelIdeal.Gen Cert.KernelIdeal.HostValue Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg)

/-- The last region's output: the second aggregation plus the second bias row. -/
theorem out3 (c : Dev nD) : W9 m ρ c (Proc.devRef .tc main_v63)
    = Cert.Gcn.biasRow (W8 m ρ c (Proc.devRef .tc main_v61)) (W8 m ρ c (Proc.devRef .tc main_v62)) :=
  (W9_arr m ρ c 2).trans (arr3 (V8 m ρ) c)

/-- The second product. -/
theorem out2 (c : Dev nD) : W7 m ρ c (Proc.devRef .tc main_v48)
    = Cert.Gcn.mm (W6 m ρ c (Proc.devRef .tc main_v47)) (W6 m ρ c (Proc.devRef .tc main_arg4)) :=
  (W7_arr m ρ c 2).trans (arr2 (V6 m ρ) c)

/-- The bias-and-maximum region's output. -/
theorem out1 (c : Dev nD) : W6 m ρ c (Proc.devRef .tc main_v47)
    = Cert.Gcn.biasRowRelu (W5 m ρ c (Proc.devRef .tc main_v45)) (W5 m ρ c (Proc.devRef .tc main_v46)) :=
  (W6_arr m ρ c 2).trans (arr1 (V5 m ρ) c)

/-- The first product. -/
theorem out0 (c : Dev nD) : W4 m ρ c (Proc.devRef .tc main_v32)
    = Cert.Gcn.mm (W3 m ρ c (Proc.devRef .tc main_arg0)) (W3 m ρ c (Proc.devRef .tc main_arg2)) :=
  (W4_arr m ρ c 2).trans (arr0 (V3 m ρ) c)

/-- THE KERNEL'S RESULT is the network of the launch arrays, the edge lists and weights being what the host stretches
    before the first product left. -/
theorem result_eq (c : Dev nD) : W9 m ρ c (Proc.devRef .tc main_v63)
    = Cert.Gcn.net (m ((c : Thread nD τ).loc main_arg0)) (W3 m ρ c (Proc.devRef .tc main_v5)) (W3 m ρ c (Proc.devRef .tc main_v6))
        (W3 m ρ c (Proc.devRef .tc main_v31)) (m ((c : Thread nD τ).loc main_arg2))
        (shapeCast S1x64 (m ((c : Thread nD τ).loc main_arg3)) shapeCasts_S64_S1x64) (m ((c : Thread nD τ).loc main_arg4))
        (shapeCast S1x16 (m ((c : Thread nD τ).loc main_arg5)) shapeCasts_S16_S1x16) := by
  rw [out3, W8_v61, W8_v62, out2, out1, W5_v45, W5_v46, out0, W7_arg5, W6_arg4, W4_arg3, W3_arg0, W3_arg2,
    W7_v5, W7_v6, W7_v31, W4_v5, W4_v6, W4_v31]
  rfl

end Cert.KernelIdeal.KernelValue

end
-- ==== Proof.KGraph.lean ====
import proofs.«165771_j1709396984302_1_alg».proof.Proof.Gen.KernelIdeal.Frame
import proofs.«165771_j1709396984302_1_alg».proof.Proof.RefRead

/-!
  The graph both programs build from the edge list, before any feature is touched.

  The kernel's first three host stretches and the reference's first thirty-odd operations are the same operations on
  the same input: the edge sources and the edge targets (the 800000 given ones followed by one self-loop per node),
  the degree of every node (ones scattered by target), its inverse square root where the degree is positive and zero
  elsewhere, and the weight of every edge (the product of that at its two ends). So the three arrays the kernel's later
  segments read are the reference's own.
-/

set_option maxRecDepth 16384

noncomputable section

namespace Cert.KernelIdeal.GraphValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- No operation of the named host stretch writes the reference at hand: each operation writes one buffer, another one. -/
local macro "not_written_by " ops:ident : tactic => `(tactic|
  exact List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 1000000 in
/-- The edge sources with the self-loops appended. -/
theorem W3_v5 (c : Dev nD) : W3 m ρ c (Proc.devRef .tc main_v5)
    = Cert.ReferenceIdeal.Read.val_main_v5 (F := F) (m ((c : Thread nD τ).loc main_arg1)) := by
  refine (StableHlo.after_of_forall_not_mem (b := Proc.devRef .tc main_v5) _ _ (by not_written_by hostOps0_2)).trans
    ((StableHlo.after_of_forall_not_mem (b := Proc.devRef .tc main_v5) _ _ (by not_written_by hostOps0_1)).trans ?_)
  show StableHlo.after hostOps0 (W0 m ρ c) (Proc.devRef .tc main_v5) = _
  dsimp only [hostOps0]
  after_results
  rfl

set_option maxHeartbeats 1000000 in
/-- The edge targets with the self-loops appended. -/
theorem W3_v6 (c : Dev nD) : W3 m ρ c (Proc.devRef .tc main_v6)
    = Cert.ReferenceIdeal.Read.val_main_v6 (F := F) (m ((c : Thread nD τ).loc main_arg1)) := by
  refine (StableHlo.after_of_forall_not_mem (b := Proc.devRef .tc main_v6) _ _ (by not_written_by hostOps0_2)).trans
    ((StableHlo.after_of_forall_not_mem (b := Proc.devRef .tc main_v6) _ _ (by not_written_by hostOps0_1)).trans ?_)
  show StableHlo.after hostOps0 (W0 m ρ c) (Proc.devRef .tc main_v6) = _
  dsimp only [hostOps0]
  after_results
  rfl

set_option maxHeartbeats 4000000 in
/-- The edge weights. -/
theorem W3_v31 (c : Dev nD) : W3 m ρ c (Proc.devRef .tc main_v31)
    = Cert.ReferenceIdeal.Read.val_main_v31 (F := F) (m ((c : Thread nD τ).loc main_arg1)) := by
  show StableHlo.after hostOps0_2 (StableHlo.after hostOps0_1 (StableHlo.after hostOps0 (W0 m ρ c))) (Proc.devRef .tc main_v31) = _
  dsimp only [hostOps0, hostOps0_1, hostOps0_2]
  after_results
  rfl

end Cert.KernelIdeal.GraphValue

end
-- ==== Proof.RefValue.lean ====
import proofs.«165771_j1709396984302_1_alg».proof.Proof.RefRead
import proofs.«165771_j1709396984302_1_alg».proof.Proof.Net
import proofs.«165771_j1709396984302_1_alg».proof.Proof.LibPlainDot

/-!
  The reference computes the network.

  Stage by stage over the reference's host operations: each `dot_general` is the matrix product; the fourteen
  operations after it are the aggregation of its result, the edge lists and the edge weights; adding the bias vector
  broadcast over the rows is adding it as a [1, N] row, and `relu` is the maximum with zero. The reference computes the
  edge lists and the edge weights a second time for its second layer, by the same operations on the same edge list:
  they are the same arrays.
-/

set_option maxRecDepth 16384

open scoped BigOperators

noncomputable section

namespace Cert.ReferenceIdeal.RefValue

open Cert.ReferenceIdeal Cert.ReferenceIdeal.Gen Cert.ReferenceIdeal.Read Idealize.ShloMosaic Idealize.ShloMosaic.ValueIdx

/-! ## The second layer's edge lists and weights are the first layer's (at any float family) -/

section Shared
variable {F : FTy → Type} [FloatOps F] (x1 : (⟨S2x800000, .i32⟩ : BufTy).Contents (Elt F))

theorem v51_eq : val_main_v51 (F := F) x1 = val_main_v5 (F := F) x1 := rfl
theorem v52_eq : val_main_v52 (F := F) x1 = val_main_v6 (F := F) x1 := rfl
theorem v56_eq : val_main_v56 (F := F) x1 = val_main_v10 (F := F) x1 := rfl
theorem v62_eq : val_main_v62 (F := F) x1 = val_main_v16 (F := F) x1 := by
  unfold val_main_v62 val_main_v16 val_main_v58 val_main_v12 val_main_v61 val_main_v15 val_main_v60 val_main_v14
  rw [v56_eq]; rfl
theorem v69_eq : val_main_v69 (F := F) x1 = val_main_v23 (F := F) x1 := by
  unfold val_main_v69 val_main_v23 val_main_v68 val_main_v22 val_main_v67 val_main_v21 val_main_v66 val_main_v20 val_main_v64 val_main_v18
  rw [v62_eq, v51_eq]; rfl
theorem v76_eq : val_main_v76 (F := F) x1 = val_main_v30 (F := F) x1 := by
  unfold val_main_v76 val_main_v30 val_main_v75 val_main_v29 val_main_v74 val_main_v28 val_main_v73 val_main_v27 val_main_v71 val_main_v25
  rw [v62_eq, v52_eq]; rfl
/-- The edge weights of the second layer are those of the first. -/
theorem v77_eq : val_main_v77 (F := F) x1 = val_main_v31 (F := F) x1 := by
  unfold val_main_v77 val_main_v31
  rw [v69_eq, v76_eq]

end Shared

/-! ## The stages, at the extended reals -/

variable (x0 : (⟨S50000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))

/-- The first `dot_general` is the product of the node features by the first weight. -/
theorem v32_eq : val_main_v32 (F := Ideal) x0 x2 = Cert.Gcn.mm x0 x2 := by
  funext i
  obtain ⟨p, q, rfl⟩ : ∃ (p : Fin 50000) (q : Fin 64), i = ix2 p q := ⟨i 0, i 1, eq_ix2 i⟩
  unfold val_main_v32
  simp only [Host.dotGeneral]
  exact Cert.Lib.PlainDot.dotGeneral_apply dot_S50000x128_S128x64_S50000x64_1_0_0_1_n_n rfl rfl rfl rfl rfl rfl none _ x0 x2 p q

/-- The fourteen operations after it are the aggregation of its result. -/
theorem v45_eq : val_main_v45 (F := Ideal) x0 x1 x2
    = Cert.Gcn.agg64 (F := Ideal) (val_main_v32 (F := Ideal) x0 x2) (val_main_v5 (F := Ideal) x1) (val_main_v6 (F := Ideal) x1) (val_main_v31 (F := Ideal) x1) := rfl

/-- Adding the first bias vector, broadcast over the rows, and `relu`: the bias as a [1, 64] row added to every row, then the
    maximum with zero. -/
theorem v49_eq (pf : S64.ShapeCasts S1x64) : val_main_v49 (F := Ideal) x0 x1 x2 x3
    = Cert.Gcn.biasRowRelu (val_main_v45 (F := Ideal) x0 x1 x2) (shapeCast S1x64 x3 pf) := by
  funext i
  obtain ⟨p, q, rfl⟩ : ∃ (p : Fin 50000) (q : Fin 64), i = ix2 p q := ⟨i 0, i 1, eq_ix2 i⟩
  have hb : val_main_v47 (F := Ideal) x3 (ix2 p q) = shapeCast S1x64 x3 pf (ix2 0 q) := by
    rw [val_main_v47_apply, val_main_v46_apply, Cert.Gcn.rowCast_apply]
    exact congrArg x3 (funext fun a => match a with | ⟨0, _⟩ => rfl)
  have hz : val_main_call1_v0 (F := Ideal) (ix2 p q) = Cert.Gcn.z32 := by
    rw [val_main_call1_v0_apply, val_main_call1_cst_apply]; rfl
  rw [val_main_v49_apply, val_main_v48_apply, hb, hz]
  rfl

/-- The second `dot_general` is the product of the hidden array by the second weight. -/
theorem v78_eq : val_main_v78 (F := Ideal) x0 x1 x2 x3 x4 = Cert.Gcn.mm (val_main_v49 (F := Ideal) x0 x1 x2 x3) x4 := by
  funext i
  obtain ⟨p, q, rfl⟩ : ∃ (p : Fin 50000) (q : Fin 16), i = ix2 p q := ⟨i 0, i 1, eq_ix2 i⟩
  unfold val_main_v78
  simp only [Host.dotGeneral]
  exact Cert.Lib.PlainDot.dotGeneral_apply dot_S50000x64_S64x16_S50000x16_1_0_0_1_n_n rfl rfl rfl rfl rfl rfl none _ _ x4 p q

/-- The fourteen operations after it are the aggregation of its result, over the second copy of the edge lists and weights. -/
theorem v91_eq : val_main_v91 (F := Ideal) x0 x1 x2 x3 x4
    = Cert.Gcn.agg16 (F := Ideal) (val_main_v78 (F := Ideal) x0 x1 x2 x3 x4) (val_main_v51 (F := Ideal) x1) (val_main_v52 (F := Ideal) x1) (val_main_v77 (F := Ideal) x1) := rfl

/-- Adding the second bias vector, broadcast over the rows: the bias as a [1, 16] row added to every row. -/
theorem v94_eq (pf : S16.ShapeCasts S1x16) : val_main_v94 (F := Ideal) x0 x1 x2 x3 x4 x5
    = Cert.Gcn.biasRow (val_main_v91 (F := Ideal) x0 x1 x2 x3 x4) (shapeCast S1x16 x5 pf) := by
  funext i
  obtain ⟨p, q, rfl⟩ : ∃ (p : Fin 50000) (q : Fin 16), i = ix2 p q := ⟨i 0, i 1, eq_ix2 i⟩
  have hb : val_main_v93 (F := Ideal) x5 (ix2 p q) = shapeCast S1x16 x5 pf (ix2 0 q) := by
    rw [val_main_v93_apply, val_main_v92_apply, Cert.Gcn.rowCast_apply]
    exact congrArg x5 (funext fun a => match a with | ⟨0, _⟩ => rfl)
  rw [val_main_v94_apply, hb]
  rfl

/-- THE REFERENCE'S RESULT is the network of its arguments, the edge lists and weights being the reference's own first copy. -/
theorem result_eq (pf64 : S64.ShapeCasts S1x64) (pf16 : S16.ShapeCasts S1x16) :
    val_main_v94 (F := Ideal) x0 x1 x2 x3 x4 x5
      = Cert.Gcn.net x0 (val_main_v5 (F := Ideal) x1) (val_main_v6 (F := Ideal) x1) (val_main_v31 (F := Ideal) x1) x2
          (shapeCast S1x64 x3 pf64) x4 (shapeCast S1x16 x5 pf16) := by
  rw [v94_eq x0 x1 x2 x3 x4 x5 pf16, v91_eq, v78_eq, v49_eq x0 x1 x2 x3 pf64, v45_eq, v32_eq, v51_eq, v52_eq, v77_eq]
  rfl

end Cert.ReferenceIdeal.RefValue

end
-- ==== Proof.lean ====
/-
  A two-layer graph convolution on 50000 nodes and 800000 edges,

      out = agg(relu(agg(x · W1) + b1) · W2) + b2,

  where agg gathers the rows of its argument at the edge sources (one self-loop per node appended), scales row e by the
  edge weight dinv(source e) · dinv(target e) (dinv the inverse square root of a node's degree where that is positive,
  zero elsewhere), and adds the scaled rows up by edge target.

  The kernel computes the two dense products and the two bias steps in four tiled regions of 25 blocks of 2000 rows
  each, the operands of a product narrowed to 16-bit floats first; the graph (edge lists with self-loops, degrees, edge
  weights) and the two aggregations are host operations around them. The reference is host operations throughout, and
  builds the graph once per layer.

  Over the extended reals the two are the same function of the arguments. Narrowing is the identity. Entry (p, q) of a
  product depends on row p of its first operand only, and an entry of a bias step on one entry of each operand, so a
  block of rows of either is the same function of the matching block of rows: the regions leave in their output arrays
  the whole-array product, and the whole-array sum with the bias row (and the maximum with zero), of the arrays they
  are entered with. The host operations between the regions are the reference's, operation for operation, and so are
  those that build the graph; the reference's second copy of the graph equals its first. No law beyond these is used:
  in particular nothing is distributed or cancelled, and the precondition (finite inputs) is never opened.

  Proof/Spec.lean states the three row-wise functions, Proof/Chain.lean the aggregation as one function of its inputs,
  Proof/Net.lean the network; Proof/RegionMM.lean and Proof/RegionBias.lean read the four regions' output arrays;
  Proof/KHost.lean and Proof/KGraph.lean read the kernel's host stretches; Proof/KValue.lean and Proof/RefValue.lean
  show that the kernel's result and the reference's are the network of the arguments.
-/
import proofs.«165771_j1709396984302_1_alg».proof.Defs
import proofs.«165771_j1709396984302_1_alg».proof.Proof.Gen.Kernel
import proofs.«165771_j1709396984302_1_alg».proof.Proof.Gen.Kernel.Frame
import proofs.«165771_j1709396984302_1_alg».proof.Proof.Gen.KernelIdeal
import proofs.«165771_j1709396984302_1_alg».proof.Proof.Gen.KernelIdeal.Frame
import proofs.«165771_j1709396984302_1_alg».proof.Proof.Gen.ReferenceIdeal
import proofs.«165771_j1709396984302_1_alg».proof.Proof.Gen.Pre_finite_inputs
import proofs.«165771_j1709396984302_1_alg».proof.Proof.KRun
import proofs.«165771_j1709396984302_1_alg».proof.Proof.KValue
import proofs.«165771_j1709396984302_1_alg».proof.Proof.KGraph
import proofs.«165771_j1709396984302_1_alg».proof.Proof.RefRun
import proofs.«165771_j1709396984302_1_alg».proof.Proof.RefRead
import proofs.«165771_j1709396984302_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the network of the arguments in their result buffer. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0))
      (Cert.ReferenceIdeal.Read.val_main_v5 (F := Ideal) (m ((c.tc : Thread Cert.KernelIdeal.nD Cert.KernelIdeal.τ).loc Cert.KernelIdeal.main_arg1)))
      (Cert.ReferenceIdeal.Read.val_main_v6 (F := Ideal) (m ((c.tc : Thread Cert.KernelIdeal.nD Cert.KernelIdeal.τ).loc Cert.KernelIdeal.main_arg1)))
      (Cert.ReferenceIdeal.Read.val_main_v31 (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (shapeCast Cert.KernelIdeal.S1x64 (m ((c.tc : Thread Cert.KernelIdeal.nD Cert.KernelIdeal.τ).loc Cert.KernelIdeal.main_arg3)) Cert.KernelIdeal.Gen.shapeCasts_S64_S1x64)
      (m ((c.tc : Thread Cert.KernelIdeal.nD Cert.KernelIdeal.τ).loc Cert.KernelIdeal.main_arg4))
      (shapeCast Cert.KernelIdeal.S1x16 (m ((c.tc : Thread Cert.KernelIdeal.nD Cert.KernelIdeal.τ).loc Cert.KernelIdeal.main_arg5)) Cert.KernelIdeal.Gen.shapeCasts_S16_S1x16), ?_, ?_⟩
  · -- the kernel: its named run, then the result buffer read back through the nine segments
    refine (θ_run Cert.KernelIdeal.defs _ _).mono (fun r h c => ⟨(h c).1.trans ?_, (h c).2⟩)
      (Cert.KernelIdeal.Named.run (F := Ideal) m ρ)
    rw [Cert.KernelIdeal.KernelValue.result_eq, Cert.KernelIdeal.GraphValue.W3_v5, Cert.KernelIdeal.GraphValue.W3_v6,
      Cert.KernelIdeal.GraphValue.W3_v31]
  · -- the reference: its run, the arguments' agreement, then its stages
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v94_eq, (hagree c).1, (hagree c).2.1, (hagree c).2.2.1, (hagree c).2.2.2.1,
      (hagree c).2.2.2.2.1, (hagree c).2.2.2.2.2]
    exact Cert.ReferenceIdeal.RefValue.result_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
